-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000 : Shape := ⟨1, ![50000]⟩
abbrev S500000 : Shape := ⟨1, ![500000]⟩
abbrev S50000x128 : Shape := ⟨2, ![50000, 128]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg7 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : IVec S50000 32) (main_arg1 : IVec S500000 32) (main_arg2 : IVec S500000 32) (main_arg3 : FVec F S50000x128 .f32) (main_arg4 : FVec F S128x128 .f32) (main_arg5 : FVec F S128 .f32) (main_arg6 : FVec F S128x128 .f32) (main_arg7 : FVec F S128 .f32) : IVec S_ 1 :=
  let main_v0 : FVec F S50000x128 .f32 := Host.absf main_arg3
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg4
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg6
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg7 main_v13 main_v16
-- ==== Kernel.lean ====
abbrev S50000 : Shape := ⟨1, ![50000]⟩
abbrev S500000 : Shape := ⟨1, ![500000]⟩
abbrev S50000x128 : Shape := ⟨2, ![50000, 128]⟩
abbrev S128x128 : Shape := ⟨2, ![128, 128]⟩
abbrev S128 : Shape := ⟨1, ![128]⟩
abbrev S_ : Shape := ⟨0, ![]⟩
abbrev S500000x1 : Shape := ⟨2, ![500000, 1]⟩
abbrev S50000x1 : Shape := ⟨2, ![50000, 1]⟩
abbrev S500000x128 : Shape := ⟨2, ![500000, 128]⟩
abbrev S5000x128 : Shape := ⟨2, ![5000, 128]⟩
abbrev S5000x1 : Shape := ⟨2, ![5000, 1]⟩
abbrev S1x128 : Shape := ⟨2, ![1, 128]⟩

abbrev nBuf : Space → Nat
  | .hbm => 71
  | .vmem => 16
  | .smem => 0
  | _ => 0

abbrev bufTy : (tb : Table) → Fin (tcTables nBuf tb) → BufTy
  | .hbm, ⟨0, _⟩ => ⟨S50000, .i32⟩
  | .hbm, ⟨1, _⟩ => ⟨S500000, .i32⟩
  | .hbm, ⟨2, _⟩ => ⟨S500000, .i32⟩
  | .hbm, ⟨3, _⟩ => ⟨S50000x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S_, .f32⟩
  | .hbm, ⟨9, _⟩ => ⟨S500000, .f32⟩
  | .hbm, ⟨10, _⟩ => ⟨S_, .f32⟩
  | .hbm, ⟨11, _⟩ => ⟨S50000, .f32⟩
  | .hbm, ⟨12, _⟩ => ⟨S500000x1, .i32⟩
  | .hbm, ⟨13, _⟩ => ⟨S50000, .f32⟩
  | .hbm, ⟨14, _⟩ => ⟨S_, .f32⟩
  | .hbm, ⟨15, _⟩ => ⟨S50000, .f32⟩
  | .hbm, ⟨16, _⟩ => ⟨S500000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S_, .i32⟩
  | .hbm, ⟨27, _⟩ => ⟨S50000, .i32⟩
  | .hbm, ⟨28, _⟩ => ⟨S50000, .i1⟩
  | .hbm, ⟨29, _⟩ => ⟨S_, .i32⟩
  | .hbm, ⟨30, _⟩ => ⟨S50000, .i32⟩
  | .hbm, ⟨31, _⟩ => ⟨S50000, .i32⟩
  | .hbm, ⟨32, _⟩ => ⟨S50000, .i32⟩
  | .hbm, ⟨33, _⟩ => ⟨S50000x1, .i32⟩
  | .hbm, ⟨34, _⟩ => ⟨S50000x128, .f32⟩
  | .hbm, ⟨35, _⟩ => ⟨S50000x1, .f32⟩
  | .hbm, ⟨36, _⟩ => ⟨S50000x128, .f32⟩
  | .hbm, ⟨37, _⟩ => ⟨S50000x128, .f32⟩
  | .hbm, ⟨38, _⟩ => ⟨S_, .i32⟩
  | .hbm, ⟨39, _⟩ => ⟨S500000, .i32⟩
  | .hbm, ⟨40, _⟩ => ⟨S500000, .i1⟩
  | .hbm, ⟨41, _⟩ => ⟨S_, .i32⟩
  | .hbm, ⟨42, _⟩ => ⟨S500000, .i32⟩
  | .hbm, ⟨43, _⟩ => ⟨S500000, .i32⟩
  | .hbm, ⟨44, _⟩ => ⟨S500000, .i32⟩
  | .hbm, ⟨45, _⟩ => ⟨S500000x1, .i32⟩
  | .hbm, ⟨46, _⟩ => ⟨S500000x128, .f32⟩
  | .hbm, ⟨47, _⟩ => ⟨S_, .f32⟩
  | .hbm, ⟨48, _⟩ => ⟨S50000x128, .f32⟩
  | .hbm, ⟨49, _⟩ => ⟨S500000x1, .i32⟩
  | .hbm, ⟨50, _⟩ => ⟨S50000x128, .f32⟩
  | .hbm, ⟨51, _⟩ => ⟨S50000x1, .f32⟩
  | .hbm, ⟨52, _⟩ => ⟨S50000x128, .f32⟩
  | .hbm, ⟨53, _⟩ => ⟨S50000x1, .f32⟩
  | .hbm, ⟨54, _⟩ => ⟨S50000x128, .f32⟩
  | .hbm, ⟨55, _⟩ => ⟨S50000x128, .f32⟩
  | .hbm, ⟨56, _⟩ => ⟨S_, .i32⟩
  | .hbm, ⟨57, _⟩ => ⟨S500000, .i32⟩
  | .hbm, ⟨58, _⟩ => ⟨S500000, .i1⟩
  | .hbm, ⟨59, _⟩ => ⟨S_, .i32⟩
  | .hbm, ⟨60, _⟩ => ⟨S500000, .i32⟩
  | .hbm, ⟨61, _⟩ => ⟨S500000, .i32⟩
  | .hbm, ⟨62, _⟩ => ⟨S500000, .i32⟩
  | .hbm, ⟨63, _⟩ => ⟨S500000x1, .i32⟩
  | .hbm, ⟨64, _⟩ => ⟨S500000x128, .f32⟩
  | .hbm, ⟨65, _⟩ => ⟨S_, .f32⟩
  | .hbm, ⟨66, _⟩ => ⟨S50000x128, .f32⟩
  | .hbm, ⟨67, _⟩ => ⟨S500000x1, .i32⟩
  | .hbm, ⟨68, _⟩ => ⟨S50000x128, .f32⟩
  | .hbm, ⟨69, _⟩ => ⟨S50000x1, .f32⟩
  | .hbm, ⟨70, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S128x128, .f32⟩
  | .local _ .vmem, ⟨5, _⟩ => ⟨S128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x1, .f32⟩
  | .local _ .vmem, ⟨11, _⟩ => ⟨S5000x1, .f32⟩
  | .local _ .vmem, ⟨12, _⟩ => ⟨S128x128, .f32⟩
  | .local _ .vmem, ⟨13, _⟩ => ⟨S128, .f32⟩
  | .local _ .vmem, ⟨14, _⟩ => ⟨S5000x128, .f32⟩
  | .local _ .vmem, ⟨15, _⟩ => ⟨S5000x128, .f32⟩
  | _, _ => ⟨S50000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_3 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c : Ref sig .tc := ⟨.hbm, 26, rfl⟩
abbrev main_v13 : Ref sig .tc := ⟨.hbm, 27, rfl⟩
abbrev main_v14 : Ref sig .tc := ⟨.hbm, 28, rfl⟩
abbrev main_c_4 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_c_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_7 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_c_8 : Ref sig .tc := ⟨.hbm, 56, rfl⟩
abbrev main_v38 : Ref sig .tc := ⟨.hbm, 57, rfl⟩
abbrev main_v39 : Ref sig .tc := ⟨.hbm, 58, rfl⟩
abbrev main_c_9 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_10 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bcast_S_S500000 : S_.BroadcastsInDim S500000 (![] : Fin 0 → Fin S500000.rank)
  bcast_S_S50000 : S_.BroadcastsInDim S50000 (![] : Fin 0 → Fin S50000.rank)
  bcast_S500000_S500000x1_0 : S500000.BroadcastsInDim S500000x1 (![0] : Fin 1 → Fin S500000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  shapeCasts_S50000_S50000x1 : S50000.ShapeCasts S50000x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  scatter_S50000_S500000x1_S500000_n_0_0_1_wf : ScatterDims.WF S50000 S500000x1 S500000 [] [0] [0] 1
  gather_S50000x128_S50000x1_S50000x128_1_0_n_n_0_1_1128_wf : GatherDims.WF S50000x128 S50000x1 S50000x128 [1] [0] [] [0] [] 1 ![1, 128]
  gather_S50000x128_S500000x1_S500000x128_1_0_n_n_0_1_1128_wf : GatherDims.WF S50000x128 S500000x1 S500000x128 [1] [0] [] [0] [] 1 ![1, 128]
  scatter_S50000x128_S500000x1_S500000x128_1_0_0_1_wf : ScatterDims.WF S50000x128 S500000x1 S500000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .f32 = 32 ∨ (Rect.block (s := S50000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)

variable [Facts₀]

def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def gather_S50000x128_S50000x1_S50000x128_1_0_n_n_0_1_1128 : GatherDims S50000x128 S50000x1 S50000x128 where
  offsetDims := [1]
  collapsedSliceDims := [0]
  operandBatchingDims := []
  startIndicesBatchingDims := []
  startIndexMap := [0]
  indexVectorDim := 1
  sliceSizes := ![1, 128]
  wf := gather_S50000x128_S50000x1_S50000x128_1_0_n_n_0_1_1128_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v32) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v33) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v34) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v47) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v49) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000 : Shape := ⟨1, ![50000]⟩
abbrev S500000 : Shape := ⟨1, ![500000]⟩
abbrev S50000x128 : Shape := ⟨2, ![50000, 128]⟩
abbrev S128x128 : Shape := ⟨2, ![128, 128]⟩
abbrev S128 : Shape := ⟨1, ![128]⟩
abbrev S_ : Shape := ⟨0, ![]⟩
abbrev S500000x1 : Shape := ⟨2, ![500000, 1]⟩
abbrev S50000x1 : Shape := ⟨2, ![50000, 1]⟩
abbrev S500000x128 : Shape := ⟨2, ![500000, 128]⟩
abbrev S1x128 : Shape := ⟨2, ![1, 128]⟩

abbrev nBuf : Space → Nat
  | .hbm => 87
  | .vmem => 0
  | .smem => 0
  | _ => 0

abbrev bufTy : (tb : Table) → Fin (tcTables nBuf tb) → BufTy
  | .hbm, ⟨0, _⟩ => ⟨S50000, .i32⟩
  | .hbm, ⟨1, _⟩ => ⟨S500000, .i32⟩
  | .hbm, ⟨2, _⟩ => ⟨S500000, .i32⟩
  | .hbm, ⟨3, _⟩ => ⟨S50000x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S_, .f32⟩
  | .hbm, ⟨9, _⟩ => ⟨S500000, .f32⟩
  | .hbm, ⟨10, _⟩ => ⟨S_, .f32⟩
  | .hbm, ⟨11, _⟩ => ⟨S50000, .f32⟩
  | .hbm, ⟨12, _⟩ => ⟨S500000x1, .i32⟩
  | .hbm, ⟨13, _⟩ => ⟨S50000, .f32⟩
  | .hbm, ⟨14, _⟩ => ⟨S_, .f32⟩
  | .hbm, ⟨15, _⟩ => ⟨S50000, .f32⟩
  | .hbm, ⟨16, _⟩ => ⟨S500000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S_, .i32⟩
  | .hbm, ⟨27, _⟩ => ⟨S50000, .i32⟩
  | .hbm, ⟨28, _⟩ => ⟨S50000, .i1⟩
  | .hbm, ⟨29, _⟩ => ⟨S_, .i32⟩
  | .hbm, ⟨30, _⟩ => ⟨S50000, .i32⟩
  | .hbm, ⟨31, _⟩ => ⟨S50000, .i32⟩
  | .hbm, ⟨32, _⟩ => ⟨S50000, .i32⟩
  | .hbm, ⟨33, _⟩ => ⟨S50000x1, .i32⟩
  | .hbm, ⟨34, _⟩ => ⟨S50000x128, .f32⟩
  | .hbm, ⟨35, _⟩ => ⟨S50000x1, .f32⟩
  | .hbm, ⟨36, _⟩ => ⟨S50000x128, .f32⟩
  | .hbm, ⟨37, _⟩ => ⟨S50000x128, .f32⟩
  | .hbm, ⟨38, _⟩ => ⟨S_, .i32⟩
  | .hbm, ⟨39, _⟩ => ⟨S500000, .i32⟩
  | .hbm, ⟨40, _⟩ => ⟨S500000, .i1⟩
  | .hbm, ⟨41, _⟩ => ⟨S_, .i32⟩
  | .hbm, ⟨42, _⟩ => ⟨S500000, .i32⟩
  | .hbm, ⟨43, _⟩ => ⟨S500000, .i32⟩
  | .hbm, ⟨44, _⟩ => ⟨S500000, .i32⟩
  | .hbm, ⟨45, _⟩ => ⟨S500000x1, .i32⟩
  | .hbm, ⟨46, _⟩ => ⟨S500000x128, .f32⟩
  | .hbm, ⟨47, _⟩ => ⟨S_, .f32⟩
  | .hbm, ⟨48, _⟩ => ⟨S50000x128, .f32⟩
  | .hbm, ⟨49, _⟩ => ⟨S500000x1, .i32⟩
  | .hbm, ⟨50, _⟩ => ⟨S50000x128, .f32⟩
  | .hbm, ⟨51, _⟩ => ⟨S50000x1, .f32⟩
  | .hbm, ⟨52, _⟩ => ⟨S50000x128, .f32⟩
  | .hbm, ⟨53, _⟩ => ⟨S50000x128, .f32⟩
  | .hbm, ⟨54, _⟩ => ⟨S50000x128, .f32⟩
  | .hbm, ⟨55, _⟩ => ⟨S1x128, .f32⟩
  | .hbm, ⟨56, _⟩ => ⟨S50000x128, .f32⟩
  | .hbm, ⟨57, _⟩ => ⟨S50000x128, .f32⟩
  | .hbm, ⟨58, _⟩ => ⟨S_, .f32⟩
  | .hbm, ⟨59, _⟩ => ⟨S50000x128, .f32⟩
  | .hbm, ⟨60, _⟩ => ⟨S50000x128, .f32⟩
  | .hbm, ⟨61, _⟩ => ⟨S50000x1, .f32⟩
  | .hbm, ⟨62, _⟩ => ⟨S50000x128, .f32⟩
  | .hbm, ⟨63, _⟩ => ⟨S50000x128, .f32⟩
  | .hbm, ⟨64, _⟩ => ⟨S_, .i32⟩
  | .hbm, ⟨65, _⟩ => ⟨S500000, .i32⟩
  | .hbm, ⟨66, _⟩ => ⟨S500000, .i1⟩
  | .hbm, ⟨67, _⟩ => ⟨S_, .i32⟩
  | .hbm, ⟨68, _⟩ => ⟨S500000, .i32⟩
  | .hbm, ⟨69, _⟩ => ⟨S500000, .i32⟩
  | .hbm, ⟨70, _⟩ => ⟨S500000, .i32⟩
  | .hbm, ⟨71, _⟩ => ⟨S500000x1, .i32⟩
  | .hbm, ⟨72, _⟩ => ⟨S500000x128, .f32⟩
  | .hbm, ⟨73, _⟩ => ⟨S_, .f32⟩
  | .hbm, ⟨74, _⟩ => ⟨S50000x128, .f32⟩
  | .hbm, ⟨75, _⟩ => ⟨S500000x1, .i32⟩
  | .hbm, ⟨76, _⟩ => ⟨S50000x128, .f32⟩
  | .hbm, ⟨77, _⟩ => ⟨S50000x1, .f32⟩
  | .hbm, ⟨78, _⟩ => ⟨S50000x128, .f32⟩
  | .hbm, ⟨79, _⟩ => ⟨S50000x128, .f32⟩
  | .hbm, ⟨80, _⟩ => ⟨S50000x128, .f32⟩
  | .hbm, ⟨81, _⟩ => ⟨S1x128, .f32⟩
  | .hbm, ⟨82, _⟩ => ⟨S50000x128, .f32⟩
  | .hbm, ⟨83, _⟩ => ⟨S50000x128, .f32⟩
  | .hbm, ⟨84, _⟩ => ⟨S_, .f32⟩
  | .hbm, ⟨85, _⟩ => ⟨S50000x128, .f32⟩
  | .hbm, ⟨86, _⟩ => ⟨S50000x128, .f32⟩
  | _, _ => ⟨S50000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_3 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c : Ref sig .tc := ⟨.hbm, 26, rfl⟩
abbrev main_v13 : Ref sig .tc := ⟨.hbm, 27, rfl⟩
abbrev main_v14 : Ref sig .tc := ⟨.hbm, 28, rfl⟩
abbrev main_c_4 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_c_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_7 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_call0_cst : Ref sig .tc := ⟨.hbm, 58, rfl⟩
abbrev main_call0_v0 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_c_8 : Ref sig .tc := ⟨.hbm, 64, rfl⟩
abbrev main_v44 : Ref sig .tc := ⟨.hbm, 65, rfl⟩
abbrev main_v45 : Ref sig .tc := ⟨.hbm, 66, rfl⟩
abbrev main_c_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_call1_cst : Ref sig .tc := ⟨.hbm, 84, rfl⟩
abbrev main_call1_v0 : Ref sig .tc := ⟨.hbm, 85, rfl⟩
abbrev main_v61 : Ref sig .tc := ⟨.hbm, 86, rfl⟩

abbrev nD : Nat := 1
abbrev τ : Topo := Topo.v7x

variable {F : FTy → Type} [FloatOps F]

class Facts₀ : Prop where
  bcast_S_S500000 : S_.BroadcastsInDim S500000 (![] : Fin 0 → Fin S500000.rank)
  bcast_S_S50000 : S_.BroadcastsInDim S50000 (![] : Fin 0 → Fin S50000.rank)
  bcast_S500000_S500000x1_0 : S500000.BroadcastsInDim S500000x1 (![0] : Fin 1 → Fin S500000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S500000x1_S500000_n_0_0_1_wf : ScatterDims.WF S50000 S500000x1 S500000 [] [0] [0] 1
  gather_S50000x128_S50000x1_S50000x128_1_0_n_n_0_1_1128_wf : GatherDims.WF S50000x128 S50000x1 S50000x128 [1] [0] [] [0] [] 1 ![1, 128]
  gather_S50000x128_S500000x1_S500000x128_1_0_n_n_0_1_1128_wf : GatherDims.WF S50000x128 S500000x1 S500000x128 [1] [0] [] [0] [] 1 ![1, 128]
  scatter_S50000x128_S500000x1_S500000x128_1_0_0_1_wf : ScatterDims.WF S50000x128 S500000x1 S500000x128 [1] [0] [0] 1
  dot_S50000x128_S128x128_S50000x128_1_0_0_1_n_n_wf : DotDims.WF S50000x128 S128x128 S50000x128 [1] [0] [0] [1] [] []

variable [Facts₀]

def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def gather_S50000x128_S50000x1_S50000x128_1_0_n_n_0_1_1128 : GatherDims S50000x128 S50000x1 S50000x128 where
  offsetDims := [1]
  collapsedSliceDims := [0]
  operandBatchingDims := []
  startIndicesBatchingDims := []
  startIndexMap := [0]
  indexVectorDim := 1
  sliceSizes := ![1, 128]
  wf := gather_S50000x128_S50000x1_S50000x128_1_0_n_n_0_1_1128_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Dense.lean ====
/-
  One dense graph-convolution layer over the extended reals, entry by entry.

  For an aggregated feature array `A` (50000 rows of 128), a column `n` of per-row scales (50000 × 1), a weight
  matrix `W` (128 × 128) and a bias `b` (128), the layer's entry in row `r` and column `q` is

      max( Σₖ (A[r,k] · n[r,0]) · W[k,q]  +  b[q] ,  0 ).

  A row of the result depends on that row of `A`, that row's scale, and on all of `W` and `b`: so the layer of a
  block of rows is the block of the layer, whatever the tiling of the rows. The zero of the `max` is kept as the
  float word `0x00000000`; it is never evaluated.
-/
import Idealize.ShloMosaic.Lib.ValueIdx
import Idealize.ShloMosaic.PureOps.Ideal.Laws

noncomputable section

open scoped BigOperators

namespace Cert.Dense

open Idealize.ShloMosaic Idealize.ShloMosaic.ValueIdx

/-- The entry in column `q` of a row whose 128 features are `a` and whose scale is `s`:
    `max (Σₖ (a k · s) · W[k,q] + b[q]) 0`. -/
def rowEntry (a : Fin 128 → EReal) (s : EReal) (W : (⟨2, ![128, 128]⟩ : Shape).Idx → EReal)
    (b : (⟨1, ![128]⟩ : Shape).Idx → EReal) (q : Fin 128) : EReal :=
  max ((∑ k : Fin 128, (a k * s) * W (ix2 k q)) + b (ix1 q)) (Ideal.ofBits .f32 0x00000000#32)

/-- The layer of `rows` many rows (the whole array has 50000, a block of it 5000): entry `(r, q)` is the row entry of
    row `r` of `A` with scale `n[r,0]`. -/
def layer (rows : Nat) (A : (⟨2, ![rows, 128]⟩ : Shape).Idx → EReal) (n : (⟨2, ![rows, 1]⟩ : Shape).Idx → EReal)
    (W : (⟨2, ![128, 128]⟩ : Shape).Idx → EReal) (b : (⟨1, ![128]⟩ : Shape).Idx → EReal) :
    (⟨2, ![rows, 128]⟩ : Shape).Idx → EReal :=
  fun i => rowEntry (fun k => A (ix2 (⟨(i 0).val, (i 0).isLt⟩ : Fin rows) k))
    (n (ix2 (⟨(i 0).val, (i 0).isLt⟩ : Fin rows) (0 : Fin 1))) W b ⟨(i 1).val, (i 1).isLt⟩

/-- The layer at explicit coordinates. -/
theorem layer_ix2 (rows : Nat) (A : (⟨2, ![rows, 128]⟩ : Shape).Idx → EReal) (n : (⟨2, ![rows, 1]⟩ : Shape).Idx → EReal)
    (W : (⟨2, ![128, 128]⟩ : Shape).Idx → EReal) (b : (⟨1, ![128]⟩ : Shape).Idx → EReal) (r : Fin rows) (q : Fin 128) :
    layer rows A n W b (ix2 r q) = rowEntry (fun k => A (ix2 r k)) (n (ix2 r (0 : Fin 1))) W b q := rfl

end Cert.Dense

end
-- ==== Proof.KernelPayload.lean ====
/-
  What the kernel body stores, read at one entry of its 5000-row block: with `x0` the block of aggregated features,
  `x1` the block of the scale column, `x2` the weights and `x3` the bias, entry `(p, q)` of the stored value is

      max( Σₖ (x0[p,k] · x1[p,0]) · x2[k,q]  +  x3[q] ,  0 ),

  the row entry of `Cert.Dense`: the two casts to bf16 are the identity on the extended reals, the matrix product into
  the zero accumulator is the plain sum over the contracted axis, the scale column and the bias row are broadcast along
  the other axis. Both pallas_calls run the same body, so the statement is made twice, once per printed payload.
-/
import proofs.«176910_j24051816858276_1_alg».proof.Proof.Gen.KernelIdeal.Skeleton
import proofs.«176910_j24051816858276_1_alg».proof.Proof.Dense
import Idealize.ShloMosaic.Lib.ValueIdx
import Idealize.ShloMosaic.Lib.Pipeline.Value
import Idealize.ShloMosaic.PureOps.Ideal.Laws

noncomputable section

open scoped BigOperators

namespace Cert.KernelPayload

open Idealize.ShloMosaic Idealize.ShloMosaic.ValueIdx Cert.KernelIdeal Cert.KernelIdeal.Gen

/-! ## The block's matrix product at an entry -/

theorem lhs_row (i : S5000x128.Idx) (c : dot_S5000x128_S128x128_S5000x128_1_0_0_1_n_n.contr.Idx) :
    (dot_S5000x128_S128x128_S5000x128_1_0_0_1_n_n.lhsIdx i c 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_contr (i : S5000x128.Idx) (c : dot_S5000x128_S128x128_S5000x128_1_0_0_1_n_n.contr.Idx) :
    (dot_S5000x128_S128x128_S5000x128_1_0_0_1_n_n.lhsIdx i c 1).val = (c ⟨0, by decide⟩).val :=
  dot_S5000x128_S128x128_S5000x128_1_0_0_1_n_n.lhsIdx_val_of_single rfl i c
theorem rhs_contr (i : S5000x128.Idx) (c : dot_S5000x128_S128x128_S5000x128_1_0_0_1_n_n.contr.Idx) :
    (dot_S5000x128_S128x128_S5000x128_1_0_0_1_n_n.rhsIdx i c 0).val = (c ⟨0, by decide⟩).val :=
  dot_S5000x128_S128x128_S5000x128_1_0_0_1_n_n.rhsIdx_val_of_single rfl i c
theorem rhs_col (i : S5000x128.Idx) (c : dot_S5000x128_S128x128_S5000x128_1_0_0_1_n_n.contr.Idx) :
    (dot_S5000x128_S128x128_S5000x128_1_0_0_1_n_n.rhsIdx i c 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product of a 5000 × 128 block with the 128 × 128 weights into the zero accumulator, at entry `(p, q)`: the sum
    over the contracted axis `k` of `l[p,k] · r[k,q]`. -/
theorem product_apply {φ₁ φ₂ : FTy} (l : FVec Ideal S5000x128 φ₁) (r : FVec Ideal S128x128 φ₂) (p : Fin 5000) (q : Fin 128) :
    matmul dot_S5000x128_S128x128_S5000x128_1_0_0_1_n_n none l r (constant S5000x128 .f32 0x00000000#32) (ix2 p q)
      = ∑ k : Fin 128, l (ix2 p k) * r (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_row _ _
    | ⟨1, _⟩ => exact (lhs_contr _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_contr _ _).trans hk
    | ⟨1, _⟩ => exact rhs_col _ _)
  rw [el, er]

/-! ## The two broadcasts at an entry -/

/-- The scale column, broadcast along the 128 features, reads the row's scale. -/
theorem scale_apply {α : Type} (x : S5000x1.Idx → α) (p : Fin 5000) (k : Fin 128) :
    broadcastTo S5000x128 x broadcasts_S5000x1_S5000x128 (ix2 p k) = x (ix2 p (0 : Fin 1)) :=
  broadcastTo_apply x broadcasts_S5000x1_S5000x128 (ix2 p k) (ix2 p (0 : Fin 1)) (fun a => by
    match a with
    | ⟨0, _⟩ => show p.val = if (5000 : Nat) = 1 then 0 else p.val; rw [if_neg (by decide)]
    | ⟨1, _⟩ => show (0 : Nat) = if (1 : Nat) = 1 then 0 else k.val; rw [if_pos rfl])

/-- The bias, viewed as one row and broadcast along the 5000 rows, reads the column's bias. -/
theorem bias_apply {α : Type} (x : S128.Idx → α) (p : Fin 5000) (q : Fin 128) :
    broadcastTo S5000x128 (shapeCast S1x128 x shapeCasts_S128_S1x128) broadcasts_S1x128_S5000x128 (ix2 p q) = x (ix1 q) := by
  rw [broadcastTo_apply (shapeCast S1x128 x shapeCasts_S128_S1x128) broadcasts_S1x128_S5000x128 (ix2 p q) (ix2 (0 : Fin 1) q) (fun a => by
    match a with
    | ⟨0, _⟩ => show (0 : Nat) = if (1 : Nat) = 1 then 0 else p.val; rw [if_pos rfl]
    | ⟨1, _⟩ => show q.val = if (128 : Nat) = 1 then 0 else q.val; rw [if_neg (by decide)])]
  refine shapeCast_apply x shapeCasts_S128_S1x128 (ix2 (0 : Fin 1) q) (ix1 q) ?_
  rw [Shape.rowMajor_val_one, Shape.rowMajor_val_two]
  show q.val = 0 * 128 + q.val
  omega

/-! ## The stored value at an entry -/

/-- The first pallas_call's stored value at entry `(p, q)`. -/
theorem pay0_apply (x0 : Vec Ideal S5000x128 .f32) (x1 : Vec Ideal S5000x1 .f32) (x2 : Vec Ideal S128x128 .f32) (x3 : Vec Ideal S128 .f32)
    (p : Fin 5000) (q : Fin 128) :
    k0_pay1 (F := Ideal) x0 x1 x2 x3 (ix2 p q)
      = Cert.Dense.rowEntry (fun k => x0 (ix2 p k)) (x1 (ix2 p (0 : Fin 1))) x2 x3 q := by
  unfold k0_pay1
  rw [maximumf_apply, addf_apply, product_apply, bias_apply]
  unfold Cert.Dense.rowEntry
  refine congrArg₂ max (congrArg (· + x3 (ix1 q)) (Finset.sum_congr rfl fun k _ => ?_)) rfl
  rw [truncf_apply, truncf_apply, mulf_apply, shapeCast_self, shapeCast_self, scale_apply]

/-- The second pallas_call's stored value at entry `(p, q)`: the same body. -/
theorem pay1_apply (x0 : Vec Ideal S5000x128 .f32) (x1 : Vec Ideal S5000x1 .f32) (x2 : Vec Ideal S128x128 .f32) (x3 : Vec Ideal S128 .f32)
    (p : Fin 5000) (q : Fin 128) :
    k1_pay1 (F := Ideal) x0 x1 x2 x3 (ix2 p q)
      = Cert.Dense.rowEntry (fun k => x0 (ix2 p k)) (x1 (ix2 p (0 : Fin 1))) x2 x3 q := by
  unfold k1_pay1
  rw [maximumf_apply, addf_apply, product_apply, bias_apply]
  unfold Cert.Dense.rowEntry
  refine congrArg₂ max (congrArg (· + x3 (ix1 q)) (Finset.sum_congr rfl fun k _ => ?_)) rfl
  rw [truncf_apply, truncf_apply, mulf_apply, shapeCast_self, shapeCast_self, scale_apply]

end Cert.KernelPayload

end
-- ==== Proof.KernelBlocks.lean ====
/-
  The two pallas_calls, read as whole-array functions. Each call tiles its 50000 rows into ten blocks of 5000; the
  weights and the bias are the same whole arrays at every grid point. At grid point `t` the body finds rows
  5000·t … 5000·t + 4999 of the aggregated features and of the scale column, and stores the dense layer of those rows
  (`Cert.KernelPayload`). A row of the layer depends on that row alone, so what point `t` writes back is block `t` of the
  layer of the WHOLE arrays (`flushed0`, `flushed1`); the ten blocks cover the 50000 rows (row `r` lies in block `r / 5000`),
  so after the call the output array is the layer of the arrays the call found (`array0`, `array1`) — for any contents
  `V` of the buffers at the call's entry.
-/
import proofs.«176910_j24051816858276_1_alg».proof.Proof.Gen.KernelIdeal.Frame
import proofs.«176910_j24051816858276_1_alg».proof.Proof.KernelPayload
import Idealize.ShloMosaic.Lib.Pipeline.Value

set_option maxRecDepth 16384

noncomputable section

namespace Cert.KernelBlocks

open Idealize.ShloMosaic Idealize.ShloMosaic.TcCoe Idealize.ShloMosaic.ValueIdx Idealize.SL.Sem
open Cert.KernelIdeal Cert.KernelIdeal.Gen
open Idealize.ShloMosaic.Pipeline (Dat Cfg Window)

theorem hz2 : (![0, 0] : Fin 2 → Nat) = fun _ => 0 := funext fun a => by fin_cases a <;> rfl
theorem hz1 : (![0] : Fin 1 → Nat) = fun _ => 0 := funext fun a => by fin_cases a <;> rfl

/-- A block of rows, stated over plain arrays: if the block's features and scales are rows `row p` of the arrays'
    (`h0`, `h1`), its weights and bias the arrays' own (`h2`, `h3`), and the block's entry `(p, q)` sits at
    `(row p, q)` of the array (`he`), then a stored value that is the row entry at every `(p, q)` (`hpay`) is the layer
    of the whole arrays read through the block. -/
theorem block_of_rows (A : S50000x128.Idx → EReal) (n : S50000x1.Idx → EReal) (W : S128x128.Idx → EReal) (b : S128.Idx → EReal)
    (x0 : S5000x128.Idx → EReal) (x1 : S5000x1.Idx → EReal) (x2 : S128x128.Idx → EReal) (x3 : S128.Idx → EReal)
    (pay : S5000x128.Idx → EReal) (e : S5000x128.Idx → S50000x128.Idx) (row : Fin 5000 → Fin 50000)
    (hpay : ∀ (p : Fin 5000) (q : Fin 128), pay (ix2 p q) = Cert.Dense.rowEntry (fun k => x0 (ix2 p k)) (x1 (ix2 p (0 : Fin 1))) x2 x3 q)
    (h0 : ∀ (p : Fin 5000) (k : Fin 128), x0 (ix2 p k) = A (ix2 (row p) k))
    (h1 : ∀ p : Fin 5000, x1 (ix2 p (0 : Fin 1)) = n (ix2 (row p) (0 : Fin 1)))
    (h2 : x2 = W) (h3 : x3 = b)
    (he : ∀ (p : Fin 5000) (q : Fin 128), e (ix2 p q) = ix2 (row p) q) (y : S5000x128.Idx) :
    pay y = Cert.Dense.layer 50000 A n W b (e y) := by
  obtain ⟨p, q, rfl⟩ : ∃ (p : Fin 5000) (q : Fin 128), y = ix2 p q := ⟨y 0, y 1, eq_ix2 y⟩
  rw [hpay, he, Cert.Dense.layer_ix2, h2, h3, h1]
  exact congrArg (fun a => Cert.Dense.rowEntry a (n (ix2 (row p) (0 : Fin 1))) W b q) (funext fun k => h0 p k)

/-! ## The first pallas_call -/

/-- The printed index maps over the grid: the row-tiled windows are at block `t` of the rows, the weights and the bias at
    block 0. -/
theorem idx_facts0 : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = t.val ∧ win0_4.index t (1 : Fin 2) = 0 ∧ t.val < 10 :=
  (by decide +kernel : ∀ t : Fin grid0.N, _)

/-- Every block of rows is some grid point's. -/
theorem idx_onto0 : ∀ q0 : Fin 10, ∃ t : Fin cfg0.N, win0_4.index t = ![q0.val, 0] :=
  (by decide +kernel : ∀ q0 : Fin 10, ∃ t : Fin grid0.N, win0_4.index t = ![q0.val, 0])

/-- What grid point `t` writes back is block `t` of the layer of the arrays the call found. -/
theorem flushed0 (V : (c : Dev nD) → (b : Ref sig .tc) → Buf (Elt Ideal) ((c : Thread nD τ).loc b)) (c : Dev nD) (t : Fin cfg0.N) :
    (dat0 V c).flushed 4 t = ((cfg0.win 4).blk t).view.read (Elt Ideal)
      (Cert.Dense.layer 50000 (V c main_v32) (V c main_v33) (V c main_arg4) (V c main_arg5)) := by
  show (cfg0.win 4).cut (grid0.coords t) ((dat0 V c).after 4 t) = _
  rw [after0_4]
  unfold out0_4
  rw [View.canon_unit_zero hz2]
  simp only [View.ld_unit_zero (S := S5000x128) hz2, View.ld_unit_zero (S := S5000x1) hz2, View.ld_unit_zero (S := S128x128) hz2,
    View.ld_unit_zero (S := S128) hz1]
  obtain ⟨e0, e1, e2, e3, e4, e5, e6, e7, e8, e9⟩ := idx_facts0 t
  funext j
  refine block_of_rows (V c main_v32) (V c main_v33) (V c main_arg4) (V c main_arg5)
    (iblk0 V c 0 t) (iblk0 V c 1 t) (iblk0 V c 2 t) (iblk0 V c 3 t)
    (k0_pay1 (F := Ideal) (iblk0 V c 0 t) (iblk0 V c 1 t) (iblk0 V c 2 t) (iblk0 V c 3 t))
    (((cfg0.win 4).blk t).view.emb) (fun p => ⟨t.val * 5000 + p.val, by have := p.isLt; omega⟩)
    (fun p q => Cert.KernelPayload.pay0_apply _ _ _ _ p q) ?_ ?_ ?_ ?_ ?_ j
  · intro p k
    show V c main_v32 (((cfg0.win 0).blk t).view.emb (ix2 p k)) = _
    refine congrArg (V c main_v32) (funext fun a => Fin.ext ?_)
    match a with
    | ⟨0, _⟩ => show win0_0.index t (0 : Fin 2) * 5000 + 1 * p.val = t.val * 5000 + p.val; omega
    | ⟨1, _⟩ => show win0_0.index t (1 : Fin 2) * 128 + 1 * k.val = k.val; omega
  · intro p
    show V c main_v33 (((cfg0.win 1).blk t).view.emb (ix2 p (0 : Fin 1))) = _
    refine congrArg (V c main_v33) (funext fun a => Fin.ext ?_)
    match a with
    | ⟨0, _⟩ => show win0_1.index t (0 : Fin 2) * 5000 + 1 * p.val = t.val * 5000 + p.val; omega
    | ⟨1, _⟩ => show win0_1.index t (1 : Fin 2) * 1 + 1 * 0 = 0; omega
  · funext y
    show V c main_arg4 (((cfg0.win 2).blk t).view.emb y) = V c main_arg4 y
    refine congrArg (V c main_arg4) (funext fun a => Fin.ext ?_)
    match a with
    | ⟨0, _⟩ => show win0_2.index t (0 : Fin 2) * 128 + 1 * (y 0).val = (y 0).val; omega
    | ⟨1, _⟩ => show win0_2.index t (1 : Fin 2) * 128 + 1 * (y 1).val = (y 1).val; omega
  · funext y
    show V c main_arg5 (((cfg0.win 3).blk t).view.emb y) = V c main_arg5 y
    refine congrArg (V c main_arg5) (funext fun a => Fin.ext ?_)
    match a with
    | ⟨0, _⟩ => show win0_3.index t (0 : Fin 1) * 128 + 1 * (y 0).val = (y 0).val; omega
  · intro p q
    funext a; apply Fin.ext
    match a with
    | ⟨0, _⟩ => show win0_4.index t (0 : Fin 2) * 5000 + 1 * p.val = t.val * 5000 + p.val; omega
    | ⟨1, _⟩ => show win0_4.index t (1 : Fin 2) * 128 + 1 * q.val = q.val; omega

/-- An index of the output array is in point `t`'s block iff each coordinate is in the block's range on its axis. -/
theorem mem_blk0 (t : Fin cfg0.N) (i : S50000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v34).slice (win0_4.rect t)).set ↔ _
  rw [View.set_slice_whole, Rect.mem_set_unit]
  exact Iff.rfl

/-- The ten blocks cover the output array: row `r` lies in the block of grid point `r / 5000`. -/
theorem cover0 (i : S50000x128.Idx) :
    ∃ t : Fin cfg0.N, (cfg0.win 4).flush t = true ∧ i ∈ ((cfg0.win 4).blk t).view.set := by
  have hi0 : (i 0).val < 50000 := (i 0).isLt
  have hi1 : (i 1).val < 128 := (i 1).isLt
  obtain ⟨t, ht⟩ := idx_onto0 ⟨(i 0).val / 5000, by omega⟩
  have q0 : win0_4.index t (0 : Fin 2) = (i 0).val / 5000 := congrFun ht 0
  have q1 : win0_4.index t (1 : Fin 2) = 0 := congrFun ht 1
  refine ⟨t, flush0_4 t, ?_⟩
  rw [mem_blk0]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 128 ≤ (i 1).val ∧ (i 1).val < win0_4.index t (1 : Fin 2) * 128 + 128; omega

/-- After the call its output array is the dense layer of the arrays it found. -/
theorem array0 (V : (c : Dev nD) → (b : Ref sig .tc) → Buf (Elt Ideal) ((c : Thread nD τ).loc b)) (c : Dev nD) :
    (dat0 V c).arrAt 4 cfg0.N = Cert.Dense.layer 50000 (V c main_v32) (V c main_v33) (V c main_arg4) (V c main_arg5) :=
  (dat0 V c).arrAt_eq_of_cover 4 _ (fun t _ => flushed0 V c t) cover0

/-! ## The second pallas_call -/

/-- The printed index maps over the grid: the row-tiled windows are at block `t` of the rows, the weights and the bias at
    block 0. -/
theorem idx_facts1 : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = t.val ∧ win1_4.index t (1 : Fin 2) = 0 ∧ t.val < 10 :=
  (by decide +kernel : ∀ t : Fin grid1.N, _)

/-- Every block of rows is some grid point's. -/
theorem idx_onto1 : ∀ q0 : Fin 10, ∃ t : Fin cfg1.N, win1_4.index t = ![q0.val, 0] :=
  (by decide +kernel : ∀ q0 : Fin 10, ∃ t : Fin grid1.N, win1_4.index t = ![q0.val, 0])

/-- What grid point `t` writes back is block `t` of the layer of the arrays the call found. -/
theorem flushed1 (V : (c : Dev nD) → (b : Ref sig .tc) → Buf (Elt Ideal) ((c : Thread nD τ).loc b)) (c : Dev nD) (t : Fin cfg1.N) :
    (dat1 V c).flushed 4 t = ((cfg1.win 4).blk t).view.read (Elt Ideal)
      (Cert.Dense.layer 50000 (V c main_v47) (V c main_v48) (V c main_arg6) (V c main_arg7)) := by
  show (cfg1.win 4).cut (grid1.coords t) ((dat1 V c).after 4 t) = _
  rw [after1_4]
  unfold out1_4
  rw [View.canon_unit_zero hz2]
  simp only [View.ld_unit_zero (S := S5000x128) hz2, View.ld_unit_zero (S := S5000x1) hz2, View.ld_unit_zero (S := S128x128) hz2,
    View.ld_unit_zero (S := S128) hz1]
  obtain ⟨e0, e1, e2, e3, e4, e5, e6, e7, e8, e9⟩ := idx_facts1 t
  funext j
  refine block_of_rows (V c main_v47) (V c main_v48) (V c main_arg6) (V c main_arg7)
    (iblk1 V c 0 t) (iblk1 V c 1 t) (iblk1 V c 2 t) (iblk1 V c 3 t)
    (k1_pay1 (F := Ideal) (iblk1 V c 0 t) (iblk1 V c 1 t) (iblk1 V c 2 t) (iblk1 V c 3 t))
    (((cfg1.win 4).blk t).view.emb) (fun p => ⟨t.val * 5000 + p.val, by have := p.isLt; omega⟩)
    (fun p q => Cert.KernelPayload.pay1_apply _ _ _ _ p q) ?_ ?_ ?_ ?_ ?_ j
  · intro p k
    show V c main_v47 (((cfg1.win 0).blk t).view.emb (ix2 p k)) = _
    refine congrArg (V c main_v47) (funext fun a => Fin.ext ?_)
    match a with
    | ⟨0, _⟩ => show win1_0.index t (0 : Fin 2) * 5000 + 1 * p.val = t.val * 5000 + p.val; omega
    | ⟨1, _⟩ => show win1_0.index t (1 : Fin 2) * 128 + 1 * k.val = k.val; omega
  · intro p
    show V c main_v48 (((cfg1.win 1).blk t).view.emb (ix2 p (0 : Fin 1))) = _
    refine congrArg (V c main_v48) (funext fun a => Fin.ext ?_)
    match a with
    | ⟨0, _⟩ => show win1_1.index t (0 : Fin 2) * 5000 + 1 * p.val = t.val * 5000 + p.val; omega
    | ⟨1, _⟩ => show win1_1.index t (1 : Fin 2) * 1 + 1 * 0 = 0; omega
  · funext y
    show V c main_arg6 (((cfg1.win 2).blk t).view.emb y) = V c main_arg6 y
    refine congrArg (V c main_arg6) (funext fun a => Fin.ext ?_)
    match a with
    | ⟨0, _⟩ => show win1_2.index t (0 : Fin 2) * 128 + 1 * (y 0).val = (y 0).val; omega
    | ⟨1, _⟩ => show win1_2.index t (1 : Fin 2) * 128 + 1 * (y 1).val = (y 1).val; omega
  · funext y
    show V c main_arg7 (((cfg1.win 3).blk t).view.emb y) = V c main_arg7 y
    refine congrArg (V c main_arg7) (funext fun a => Fin.ext ?_)
    match a with
    | ⟨0, _⟩ => show win1_3.index t (0 : Fin 1) * 128 + 1 * (y 0).val = (y 0).val; omega
  · intro p q
    funext a; apply Fin.ext
    match a with
    | ⟨0, _⟩ => show win1_4.index t (0 : Fin 2) * 5000 + 1 * p.val = t.val * 5000 + p.val; omega
    | ⟨1, _⟩ => show win1_4.index t (1 : Fin 2) * 128 + 1 * q.val = q.val; omega

/-- An index of the output array is in point `t`'s block iff each coordinate is in the block's range on its axis. -/
theorem mem_blk1 (t : Fin cfg1.N) (i : S50000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v49).slice (win1_4.rect t)).set ↔ _
  rw [View.set_slice_whole, Rect.mem_set_unit]
  exact Iff.rfl

/-- The ten blocks cover the output array: row `r` lies in the block of grid point `r / 5000`. -/
theorem cover1 (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  obtain ⟨t, ht⟩ := idx_onto1 ⟨(i 0).val / 5000, by omega⟩
  have q0 : win1_4.index t (0 : Fin 2) = (i 0).val / 5000 := congrFun ht 0
  have q1 : win1_4.index t (1 : Fin 2) = 0 := congrFun ht 1
  refine ⟨t, flush1_4 t, ?_⟩
  rw [mem_blk1]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

/-- After the call its output array is the dense layer of the arrays it found. -/
theorem array1 (V : (c : Dev nD) → (b : Ref sig .tc) → Buf (Elt Ideal) ((c : Thread nD τ).loc b)) (c : Dev nD) :
    (dat1 V c).arrAt 4 cfg1.N = Cert.Dense.layer 50000 (V c main_v47) (V c main_v48) (V c main_arg6) (V c main_arg7) :=
  (dat1 V c).arrAt_eq_of_cover 4 _ (fun t _ => flushed1 V c t) cover1

end Cert.KernelBlocks

end
-- ==== Proof.HostStages.lean ====
/-
  The stages of the two-layer graph convolution that both programs compute on the host, with the same operations,
  named once as functions of what goes into them:

    * `scaleOf idx`   — the symmetric-normalisation scale of every node from one end of the edges: the node's degree
                        (a scatter-add of ones at `idx`), clamped below by 1, under the reciprocal square root;
    * `lookup b E`     — the embedding lookup: row `b[i]` of the table `E` for every node `i` (a negative index
                        wraps by 50000 first, as numpy indexing does);
    * `aggregate x s src dst` — one message-passing step: every node's features scaled by `s`, gathered at the
                        edges' sources and scatter-added at the edges' destinations.

  The value proofs never open these: the kernel's program and the reference apply them to equal inputs, and the only
  place the two programs differ is the dense layer between them.
-/
import proofs.«176910_j24051816858276_1_alg».proof.Proof.Gen.KernelIdeal
import Idealize.ShloMosaic.PureOps.Ideal

noncomputable section

namespace Cert.HostStages

open Idealize.ShloMosaic Cert.KernelIdeal Cert.KernelIdeal.Facts₀ Cert.KernelIdeal.Facts

/-- A node index read the numpy way: a negative one wraps around by the number of nodes. -/
def wrapEdges (idx : IVec S500000 32) : IVec S500000 32 :=
  select (cmpi .slt idx (broadcastInDim S500000 ![] bcast_S_S500000 (constantI S_ 32 0#32)))
    (addi idx (broadcastInDim S500000 ![] bcast_S_S500000 (constantI S_ 32 50000#32))) idx

/-- `rsqrt (max (degree, 1))` per node, the degree counted over the edge ends `idx`. -/
def scaleOf (idx : IVec S500000 32) : FVec Ideal S50000 .f32 :=
  Host.rsqrt
    (maximumf
      (Host.scatterAdd scatter_S50000_S500000x1_S500000_n_0_0_1
        (broadcastInDim S50000 ![] bcast_S_S50000 (constant S_ .f32 0x00000000#32))
        (broadcastInDim S500000x1 ![0] bcast_S500000_S500000x1_0 idx)
        (broadcastInDim S500000 ![] bcast_S_S500000 (constant S_ .f32 0x3F800000#32)))
      (broadcastInDim S50000 ![] bcast_S_S50000 (constant S_ .f32 0x3F800000#32)))

/-- Row `b[i]` of the table for every node `i`. -/
def lookup (b : IVec S50000 32) (E : FVec Ideal S50000x128 .f32) :
    FVec Ideal S50000x128 .f32 :=
  Host.gather gather_S50000x128_S50000x1_S50000x128_1_0_n_n_0_1_1128 E
    (broadcastInDim S50000x1 ![0] bcast_S50000_S50000x1_0
      (select (cmpi .slt b (broadcastInDim S50000 ![] bcast_S_S50000 (constantI S_ 32 0#32)))
        (addi b (broadcastInDim S50000 ![] bcast_S_S50000 (constantI S_ 32 50000#32))) b))

/-- One message-passing step: scale the rows of `x` by `s`, gather them at the sources, add them up at the
    destinations. -/
def aggregate (x : FVec Ideal S50000x128 .f32) (s : FVec Ideal S50000 .f32)
    (src dst : IVec S500000 32) : FVec Ideal S50000x128 .f32 :=
  Host.scatterAdd scatter_S50000x128_S500000x1_S500000x128_1_0_0_1
    (broadcastInDim S50000x128 ![] bcast_S_S50000x128 (constant S_ .f32 0x00000000#32))
    (broadcastInDim S500000x1 ![0] bcast_S500000_S500000x1_0 dst)
    (Host.gather gather_S50000x128_S500000x1_S500000x128_1_0_n_n_0_1_1128
      (mulf x (broadcastInDim S50000x128 ![0, 1] bcast_S50000x1_S50000x128_0_1 (broadcastInDim S50000x1 ![0] bcast_S50000_S50000x1_0 s)))
      (broadcastInDim S500000x1 ![0] bcast_S500000_S500000x1_0 (wrapEdges src)))

/-- The scale of every node as the 50000 × 1 column a dense layer takes. -/
def column (s : FVec Ideal S50000 .f32) : FVec Ideal S50000x1 .f32 :=
  fun i => shapeCast S50000x1 s shapeCasts_S50000_S50000x1 i

end Cert.HostStages

end
-- ==== Proof.Network.lean ====
/-
  The whole two-layer network as one function of the eight inputs: the embedding lookup, then twice "aggregate over
  the edges, then the dense layer" (`Cert.HostStages`, `Cert.Dense`), the first layer with `W1, b1`, the second with
  `W2, b2`; both layers scale by the source-side normalisation before the aggregation and by the destination-side one
  inside the dense layer.
-/
import proofs.«176910_j24051816858276_1_alg».proof.Proof.HostStages
import proofs.«176910_j24051816858276_1_alg».proof.Proof.Dense

noncomputable section

namespace Cert.Network

open Idealize.ShloMosaic Cert.KernelIdeal Cert.HostStages

/-- One layer: aggregate the (source-scaled) features over the edges, then the dense layer with the
    destination-side scale. -/
def conv (x : FVec Ideal S50000x128 .f32) (src dst : IVec S500000 32)
    (W : FVec Ideal S128x128 .f32) (b : FVec Ideal S128 .f32) :
    FVec Ideal S50000x128 .f32 :=
  Cert.Dense.layer 50000 (aggregate x (scaleOf src) src dst) (column (scaleOf dst)) W b

/-- The network: lookup, layer one, layer two. -/
def network (batch : IVec S50000 32) (src dst : IVec S500000 32)
    (E : FVec Ideal S50000x128 .f32)
    (W1 : FVec Ideal S128x128 .f32) (b1 : FVec Ideal S128 .f32)
    (W2 : FVec Ideal S128x128 .f32) (b2 : FVec Ideal S128 .f32) :
    FVec Ideal S50000x128 .f32 :=
  conv (conv (lookup batch E) src dst W1 b1) src dst W2 b2

end Cert.Network

end
-- ==== Proof.KernelValue.lean ====
/-
  The kernel program's result as a function of its inputs. Its @main is: a stretch of host operations (the two
  normalisation scales, the embedding lookup, the first aggregation), the first pallas_call, a second stretch (the
  second aggregation), the second pallas_call. The buffer contents at the four boundaries are the generated frame's
  `W1 … W4`; here each buffer a later stage reads is read back:

    * after the first stretch the call's operands are the first aggregation, the destination scale as a column, `W1`, `b1`;
    * the first call leaves the dense layer of them in its output (`Cert.KernelBlocks.array0`) and nothing else changes;
    * the second stretch aggregates that output; the second call leaves the dense layer again (`array1`).

  Composed: the result buffer ends at `Cert.Network.network` of the launch contents of the eight arguments.
-/
import proofs.«176910_j24051816858276_1_alg».proof.Proof.Gen.KernelIdeal.Frame
import proofs.«176910_j24051816858276_1_alg».proof.Proof.KernelBlocks
import proofs.«176910_j24051816858276_1_alg».proof.Proof.Network
import Idealize.ShloMosaic.Lib.StableHlo.Run

set_option maxRecDepth 16384

noncomputable section

namespace Cert.KernelValue

open Idealize.ShloMosaic Idealize.ShloMosaic.TcCoe Idealize.SL.Sem Idealize.ShloMosaic.StableHlo
open Cert.KernelIdeal Cert.KernelIdeal.Gen Cert.HostStages Cert.Network

variable (m : (ℓ : Loc nD τ sig) → Buf (Elt Ideal) ℓ) (ρ : Dev nD → PrngReg)

/-! ## After the first host stretch -/

set_option maxHeartbeats 4000000 in
theorem first_aggregate (c : Dev nD) : W1 m ρ c (Proc.devRef .tc main_v32)
    = aggregate (lookup (m ((c : Thread nD τ).loc main_arg0)) (m ((c : Thread nD τ).loc main_arg3)))
        (scaleOf (m ((c : Thread nD τ).loc main_arg1))) (m ((c : Thread nD τ).loc main_arg1)) (m ((c : Thread nD τ).loc main_arg2)) := by
  show StableHlo.after hostOps0 (W0 m ρ c) (Proc.devRef .tc main_v32) = _
  after_results_simp
  rfl

set_option maxHeartbeats 4000000 in
theorem first_column (c : Dev nD) : W1 m ρ c (Proc.devRef .tc main_v33) = column (scaleOf (m ((c : Thread nD τ).loc main_arg2))) := by
  show StableHlo.after hostOps0 (W0 m ρ c) (Proc.devRef .tc main_v33) = _
  after_results_simp
  rfl

set_option maxHeartbeats 4000000 in
theorem W1_src_scale (c : Dev nD) : W1 m ρ c (Proc.devRef .tc main_v9) = scaleOf (m ((c : Thread nD τ).loc main_arg1)) := by
  show StableHlo.after hostOps0 (W0 m ρ c) (Proc.devRef .tc main_v9) = _
  after_results_simp
  rfl

set_option maxHeartbeats 4000000 in
theorem W1_dst_scale (c : Dev nD) : W1 m ρ c (Proc.devRef .tc main_v12) = scaleOf (m ((c : Thread nD τ).loc main_arg2)) := by
  show StableHlo.after hostOps0 (W0 m ρ c) (Proc.devRef .tc main_v12) = _
  after_results_simp
  rfl

set_option maxHeartbeats 4000000 in
theorem W1_arg (c : Dev nD) :
    W1 m ρ c (Proc.devRef .tc main_arg1) = m ((c : Thread nD τ).loc main_arg1)
    ∧ W1 m ρ c (Proc.devRef .tc main_arg2) = m ((c : Thread nD τ).loc main_arg2)
    ∧ W1 m ρ c (Proc.devRef .tc main_arg4) = m ((c : Thread nD τ).loc main_arg4)
    ∧ W1 m ρ c (Proc.devRef .tc main_arg5) = m ((c : Thread nD τ).loc main_arg5)
    ∧ W1 m ρ c (Proc.devRef .tc main_arg6) = m ((c : Thread nD τ).loc main_arg6)
    ∧ W1 m ρ c (Proc.devRef .tc main_arg7) = m ((c : Thread nD τ).loc main_arg7) := by
  refine ⟨?_, ?_, ?_, ?_, ?_, ?_⟩
  all_goals (show StableHlo.after hostOps0 (W0 m ρ c) _ = _; after_results_simp)

/-! ## After the first pallas_call -/

theorem first_layer (c : Dev nD) : W2 m ρ c (Proc.devRef .tc main_v34)
    = conv (lookup (m ((c : Thread nD τ).loc main_arg0)) (m ((c : Thread nD τ).loc main_arg3)))
        (m ((c : Thread nD τ).loc main_arg1)) (m ((c : Thread nD τ).loc main_arg2))
        (m ((c : Thread nD τ).loc main_arg4)) (m ((c : Thread nD τ).loc main_arg5)) := by
  refine (W2_arr m ρ c 4).trans ((Cert.KernelBlocks.array0 (V1 m ρ) c).trans ?_)
  show Cert.Dense.layer 50000 (W1 m ρ c (Proc.devRef .tc main_v32)) (W1 m ρ c (Proc.devRef .tc main_v33))
    (W1 m ρ c (Proc.devRef .tc main_arg4)) (W1 m ρ c (Proc.devRef .tc main_arg5)) = _
  rw [first_aggregate, first_column, (W1_arg m ρ c).2.2.1, (W1_arg m ρ c).2.2.2.1]
  rfl

/-- What the first call does not write stays as the first stretch left it. -/
theorem W2_kept (c : Dev nD) :
    W2 m ρ c (Proc.devRef .tc main_v9) = scaleOf (m ((c : Thread nD τ).loc main_arg1))
    ∧ W2 m ρ c (Proc.devRef .tc main_v12) = scaleOf (m ((c : Thread nD τ).loc main_arg2))
    ∧ W2 m ρ c (Proc.devRef .tc main_arg1) = m ((c : Thread nD τ).loc main_arg1)
    ∧ W2 m ρ c (Proc.devRef .tc main_arg2) = m ((c : Thread nD τ).loc main_arg2)
    ∧ W2 m ρ c (Proc.devRef .tc main_arg6) = m ((c : Thread nD τ).loc main_arg6)
    ∧ W2 m ρ c (Proc.devRef .tc main_arg7) = m ((c : Thread nD τ).loc main_arg7) :=
  ⟨(W2_of_ne m ρ c main_v9 (by decide)).trans (W1_src_scale m ρ c),
   (W2_of_ne m ρ c main_v12 (by decide)).trans (W1_dst_scale m ρ c),
   (W2_of_ne m ρ c main_arg1 (by decide)).trans (W1_arg m ρ c).1,
   (W2_of_ne m ρ c main_arg2 (by decide)).trans (W1_arg m ρ c).2.1,
   (W2_of_ne m ρ c main_arg6 (by decide)).trans (W1_arg m ρ c).2.2.2.2.1,
   (W2_of_ne m ρ c main_arg7 (by decide)).trans (W1_arg m ρ c).2.2.2.2.2⟩

/-! ## After the second host stretch -/

set_option maxHeartbeats 4000000 in
theorem second_aggregate (c : Dev nD) : W3 m ρ c (Proc.devRef .tc main_v47)
    = aggregate (W2 m ρ c (Proc.devRef .tc main_v34)) (W2 m ρ c (Proc.devRef .tc main_v9))
        (W2 m ρ c (Proc.devRef .tc main_arg1)) (W2 m ρ c (Proc.devRef .tc main_arg2)) := by
  show StableHlo.after hostOps1 (W2 m ρ c) (Proc.devRef .tc main_v47) = _
  after_results_simp
  rfl

set_option maxHeartbeats 4000000 in
theorem second_column (c : Dev nD) : W3 m ρ c (Proc.devRef .tc main_v48) = column (W2 m ρ c (Proc.devRef .tc main_v12)) := by
  show StableHlo.after hostOps1 (W2 m ρ c) (Proc.devRef .tc main_v48) = _
  after_results_simp
  rfl

set_option maxHeartbeats 4000000 in
theorem W3_arg (c : Dev nD) :
    W3 m ρ c (Proc.devRef .tc main_arg6) = W2 m ρ c (Proc.devRef .tc main_arg6)
    ∧ W3 m ρ c (Proc.devRef .tc main_arg7) = W2 m ρ c (Proc.devRef .tc main_arg7) := by
  refine ⟨?_, ?_⟩
  all_goals (show StableHlo.after hostOps1 (W2 m ρ c) _ = _; after_results_simp)

/-! ## After the second pallas_call: the result -/

/-- The result buffer at the last boundary is the network of the launch contents of the eight arguments. -/
theorem result (c : Dev nD) : W4 m ρ c (Proc.devRef .tc main_v49)
    = network (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  refine (W4_arr m ρ c 4).trans ((Cert.KernelBlocks.array1 (V3 m ρ) c).trans ?_)
  show Cert.Dense.layer 50000 (W3 m ρ c (Proc.devRef .tc main_v47)) (W3 m ρ c (Proc.devRef .tc main_v48))
    (W3 m ρ c (Proc.devRef .tc main_arg6)) (W3 m ρ c (Proc.devRef .tc main_arg7)) = _
  rw [second_aggregate, second_column, (W3_arg m ρ c).1, (W3_arg m ρ c).2, first_layer,
    (W2_kept m ρ c).1, (W2_kept m ρ c).2.1, (W2_kept m ρ c).2.2.1, (W2_kept m ρ c).2.2.2.1, (W2_kept m ρ c).2.2.2.2.1, (W2_kept m ρ c).2.2.2.2.2]
  rfl

end Cert.KernelValue

end
-- ==== Proof.RefValue.lean ====
/-
  The reference's result as a function of its inputs. Its @main is all host operations, and its generated run states
  the result as their composed term. That term is the network of `Cert.Network`: the lookup, the scales and the two
  aggregations are the same operations the kernel's program applies, and each of its two dense layers

      relu( (A · n[:, None]) @ W + b )

  is, entry by entry, `max (Σₖ (A[r,k] · n[r]) · W[k,q] + b[q]) 0` — the host's `dot_general` is the plain sum over the
  contracted axis on the extended reals, the two-step broadcasts of the scale and of the bias read the row's scale and
  the column's bias, and the scale as a 50000 × 1 column is the same numbers whether it is made by a reshape or by a
  broadcast.
-/
import proofs.«176910_j24051816858276_1_alg».proof.Proof.Gen.ReferenceIdeal.Run
import proofs.«176910_j24051816858276_1_alg».proof.Proof.Network
import Idealize.ShloMosaic.Lib.ValueIdx
import Idealize.ShloMosaic.Lib.Pipeline.Value
import Idealize.ShloMosaic.PureOps.Ideal.Laws

noncomputable section

open scoped BigOperators

namespace Cert.RefValue

open Idealize.ShloMosaic Idealize.ShloMosaic.TcCoe Idealize.ShloMosaic.ValueIdx Idealize.SL.Sem
open Cert.ReferenceIdeal Cert.ReferenceIdeal.Facts₀ Cert.ReferenceIdeal.Facts

/-! ## The host's matrix product at an entry -/

theorem lhs_row (i : S50000x128.Idx) (c : dot_S50000x128_S128x128_S50000x128_1_0_0_1_n_n.contr.Idx) :
    (dot_S50000x128_S128x128_S50000x128_1_0_0_1_n_n.lhsIdx i c 0).val = (i 0).val := by
  unfold DotDims.lhsIdx
  rw [dif_neg (show ¬(0 : Fin S50000x128.rank) ∈ dot_S50000x128_S128x128_S50000x128_1_0_0_1_n_n.lhsBatch by decide), dif_pos (show (0 : Fin S50000x128.rank) ∈ dot_S50000x128_S128x128_S50000x128_1_0_0_1_n_n.lhsNonContracting by decide)]
  rfl
theorem lhs_contr (i : S50000x128.Idx) (c : dot_S50000x128_S128x128_S50000x128_1_0_0_1_n_n.contr.Idx) :
    (dot_S50000x128_S128x128_S50000x128_1_0_0_1_n_n.lhsIdx i c 1).val = (c ⟨0, by decide⟩).val :=
  dot_S50000x128_S128x128_S50000x128_1_0_0_1_n_n.lhsIdx_val_of_single rfl i c
theorem rhs_contr (i : S50000x128.Idx) (c : dot_S50000x128_S128x128_S50000x128_1_0_0_1_n_n.contr.Idx) :
    (dot_S50000x128_S128x128_S50000x128_1_0_0_1_n_n.rhsIdx i c 0).val = (c ⟨0, by decide⟩).val :=
  dot_S50000x128_S128x128_S50000x128_1_0_0_1_n_n.rhsIdx_val_of_single rfl i c
theorem rhs_col (i : S50000x128.Idx) (c : dot_S50000x128_S128x128_S50000x128_1_0_0_1_n_n.contr.Idx) :
    (dot_S50000x128_S128x128_S50000x128_1_0_0_1_n_n.rhsIdx i c 1).val = (i 1).val := by
  unfold DotDims.rhsIdx
  rw [dif_neg (show ¬(1 : Fin S128x128.rank) ∈ dot_S50000x128_S128x128_S50000x128_1_0_0_1_n_n.rhsBatch by decide), dif_pos (show (1 : Fin S128x128.rank) ∈ dot_S50000x128_S128x128_S50000x128_1_0_0_1_n_n.rhsNonContracting by decide)]
  rfl

/-- The host's product of the 50000 × 128 features with the 128 × 128 weights at entry `(r, q)`: the sum over the
    contracted axis `k` of `l[r,k] · w[k,q]`. -/
theorem product_apply (l : FVec Ideal S50000x128 .f32) (w : FVec Ideal S128x128 .f32) (r : Fin 50000) (q : Fin 128) :
    Host.dotGeneral dot_S50000x128_S128x128_S50000x128_1_0_0_1_n_n none l w (ix2 r q)
      = ∑ k : Fin 128, l (ix2 r k) * w (ix2 k q) := by
  simp only [Host.dotGeneral]
  rw [Ideal.dotGeneral_apply, ← Equiv.sum_comp (ValueIdx.contrEquiv1 dot_S50000x128_S128x128_S50000x128_1_0_0_1_n_n 128 rfl rfl).symm]
  refine Finset.sum_congr rfl fun k _ => ?_
  have hk := ValueIdx.contrEquiv1_symm_val dot_S50000x128_S128x128_S50000x128_1_0_0_1_n_n 128 rfl rfl k
  have el : dot_S50000x128_S128x128_S50000x128_1_0_0_1_n_n.lhsIdx (ix2 r q) ((ValueIdx.contrEquiv1 dot_S50000x128_S128x128_S50000x128_1_0_0_1_n_n 128 rfl rfl).symm k) = ix2 r k := funext fun a => Fin.ext (by
    match a with
    | ⟨0, _⟩ => exact lhs_row _ _
    | ⟨1, _⟩ => exact (lhs_contr _ _).trans hk)
  have er : dot_S50000x128_S128x128_S50000x128_1_0_0_1_n_n.rhsIdx (ix2 r q) ((ValueIdx.contrEquiv1 dot_S50000x128_S128x128_S50000x128_1_0_0_1_n_n 128 rfl rfl).symm k) = ix2 k q := funext fun a => Fin.ext (by
    match a with
    | ⟨0, _⟩ => exact (rhs_contr _ _).trans hk
    | ⟨1, _⟩ => exact rhs_col _ _)
  rw [el, er]

/-! ## The broadcasts at an entry -/

/-- The scale, broadcast to a column and then along the features, reads the row's scale: the column's entry `(r, 0)`. -/
theorem scale_apply (s : FVec Ideal S50000 .f32) (r : Fin 50000) (k : Fin 128) :
    broadcastInDim S50000x128 ![0, 1] bcast_S50000x1_S50000x128_0_1 (broadcastInDim S50000x1 ![0] bcast_S50000_S50000x1_0 s) (ix2 r k)
      = Cert.HostStages.column s (ix2 r (0 : Fin 1)) := by
  rw [broadcastInDim_apply _ bcast_S50000x1_S50000x128_0_1 _ (ix2 r k) (ix2 r (0 : Fin 1)) (fun a => by
    match a with
    | ⟨0, _⟩ => show r.val = if (50000 : Nat) = 1 then 0 else r.val; rw [if_neg (by decide)]
    | ⟨1, _⟩ => show (0 : Nat) = if (1 : Nat) = 1 then 0 else k.val; rw [if_pos rfl])]
  rw [broadcastInDim_apply _ bcast_S50000_S50000x1_0 s (ix2 r (0 : Fin 1)) (ix1 r) (fun a => by
    match a with
    | ⟨0, _⟩ => show r.val = if (50000 : Nat) = 1 then 0 else r.val; rw [if_neg (by decide)])]
  unfold Cert.HostStages.column
  refine (shapeCast_apply s _ (ix2 r (0 : Fin 1)) (ix1 r) ?_).symm
  rw [Shape.rowMajor_val_one, Shape.rowMajor_val_two]
  show r.val = r.val * 1 + 0
  omega

/-- The bias, broadcast to one row and then along the rows, reads the column's bias. -/
theorem bias_apply (b : FVec Ideal S128 .f32) (r : Fin 50000) (q : Fin 128) :
    broadcastInDim S50000x128 ![0, 1] bcast_S1x128_S50000x128_0_1 (broadcastInDim S1x128 ![1] bcast_S128_S1x128_1 b) (ix2 r q) = b (ix1 q) := by
  rw [broadcastInDim_apply _ bcast_S1x128_S50000x128_0_1 _ (ix2 r q) (ix2 (0 : Fin 1) q) (fun a => by
    match a with
    | ⟨0, _⟩ => show (0 : Nat) = if (1 : Nat) = 1 then 0 else r.val; rw [if_pos rfl]
    | ⟨1, _⟩ => show q.val = if (128 : Nat) = 1 then 0 else q.val; rw [if_neg (by decide)])]
  exact broadcastInDim_apply _ bcast_S128_S1x128_1 b (ix2 (0 : Fin 1) q) (ix1 q) (fun a => by
    match a with
    | ⟨0, _⟩ => show q.val = if (128 : Nat) = 1 then 0 else q.val; rw [if_neg (by decide)])

/-- The zero of the `relu`, broadcast from a scalar, is the zero word everywhere. -/
theorem zero_apply (i : S50000x128.Idx) :
    broadcastInDim S50000x128 ![] bcast_S_S50000x128 (constant (F := Ideal) S_ .f32 0x00000000#32) i = Ideal.ofBits .f32 0x00000000#32 :=
  broadcastInDim_apply _ bcast_S_S50000x128 _ i ix0 (fun a => a.elim0)

/-! ## One dense layer of the reference -/

/-- `relu ((A · n[:, None]) @ W + b)` as the reference's @main spells it is the dense layer with the scale as a column. -/
theorem ref_layer (A : FVec Ideal S50000x128 .f32) (s : FVec Ideal S50000 .f32) (W : FVec Ideal S128x128 .f32) (b : FVec Ideal S128 .f32) :
    maximumf
        (addf
          (Host.dotGeneral dot_S50000x128_S128x128_S50000x128_1_0_0_1_n_n none
            (mulf A (broadcastInDim S50000x128 ![0, 1] bcast_S50000x1_S50000x128_0_1 (broadcastInDim S50000x1 ![0] bcast_S50000_S50000x1_0 s))) W)
          (broadcastInDim S50000x128 ![0, 1] bcast_S1x128_S50000x128_0_1 (broadcastInDim S1x128 ![1] bcast_S128_S1x128_1 b)))
        (broadcastInDim S50000x128 ![] bcast_S_S50000x128 (constant S_ .f32 0x00000000#32))
      = Cert.Dense.layer 50000 A (Cert.HostStages.column s) W b := by
  funext i
  obtain ⟨r, q, rfl⟩ : ∃ (r : Fin 50000) (q : Fin 128), i = ix2 r q := ⟨i 0, i 1, eq_ix2 i⟩
  rw [Cert.Dense.layer_ix2, maximumf_apply, addf_apply, product_apply, bias_apply, zero_apply]
  unfold Cert.Dense.rowEntry
  refine congrArg₂ max (congrArg (· + b (ix1 q)) (Finset.sum_congr rfl fun k _ => ?_)) rfl
  rw [mulf_apply, scale_apply]

/-! ## The reference's result -/

set_option maxRecDepth 8192 in
/-- The reference's result term is the network of the launch contents of its eight arguments. -/
theorem result_eq (m : (ℓ : Loc nD τ sig) → Buf (Elt Ideal) ℓ) (c : Dev nD) :
    Cert.ReferenceIdeal.Value.res_main_v61 (F := Ideal) m c
      = Cert.Network.network (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) := by
  unfold Cert.ReferenceIdeal.Value.res_main_v61
  rw [ref_layer, ref_layer]
  rfl

end Cert.RefValue

end
-- ==== Proof.lean ====
/-
  A two-layer graph convolution (50000 nodes, 500000 edges, 128 features): the kernel's program against its jnp
  reference, over the extended reals.

  Both programs compute, with the same host operations, the two symmetric-normalisation scales
  `rsqrt (max (degree, 1))` (source side and destination side), the embedding lookup, and before each layer the
  aggregation "scale by the source side, gather at the edges' sources, scatter-add at their destinations". They differ
  only in the dense step after each aggregation. The reference spells it

      relu( (agg · n_dst[:, None]) @ W + b )

  on the whole 50000 × 128 array; the kernel's program reshapes `n_dst` to a column and runs a pallas_call over ten
  blocks of 5000 rows whose body computes `max ((agg · n) @ W + b, 0)` on a block, the product's operands cast to
  bf16 first. On the extended reals the casts are the identity and both matrix products are the plain sum over the
  contracted axis, so entry `(r, q)` of either is `max (Σₖ (agg[r,k] · n_dst[r]) · W[k,q] + b[q]) 0` (`Cert.Dense`);
  a row of it depends on that row of `agg` alone, so the ten blocks assemble to the whole array's layer
  (`Cert.KernelBlocks`). No algebraic law is needed beyond that reading, and the inputs' finiteness is never used.

  The kernel program's run (the generated frame's launch, with the result buffer kept) ends at the network of
  `Cert.Network` applied to its arguments (`Cert.KernelValue.result`); the reference's generated run ends at the same
  function of its arguments (`Cert.RefValue.result_eq`); the arguments agree.
-/
import proofs.«176910_j24051816858276_1_alg».proof.Defs
import proofs.«176910_j24051816858276_1_alg».proof.Proof.Gen.Kernel
import proofs.«176910_j24051816858276_1_alg».proof.Proof.Gen.Kernel.Frame
import proofs.«176910_j24051816858276_1_alg».proof.Proof.Gen.KernelIdeal
import proofs.«176910_j24051816858276_1_alg».proof.Proof.Gen.KernelIdeal.Frame
import proofs.«176910_j24051816858276_1_alg».proof.Proof.Gen.ReferenceIdeal
import proofs.«176910_j24051816858276_1_alg».proof.Proof.Gen.ReferenceIdeal.Run
import proofs.«176910_j24051816858276_1_alg».proof.Proof.Gen.Pre_finite_inputs
import proofs.«176910_j24051816858276_1_alg».proof.Proof.KernelRun
import proofs.«176910_j24051816858276_1_alg».proof.Proof.KernelValue
import proofs.«176910_j24051816858276_1_alg».proof.Proof.RefValue
import Idealize.ShloMosaic.Adequacy
import Idealize.ShloMosaic.Init

noncomputable section

namespace Cert.Proof

open Idealize.ShloMosaic Idealize.SL.Sem

/-- The word-level kernel program runs and leaves its arguments alone. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference is all host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the network of their (agreeing) arguments in the result buffer. -/
theorem algebraic : Cert.algebraic_KernelIdeal_ReferenceIdeal := by
  intro m ρ m' ρ' _ hagree
  refine ⟨_, (θ_run Cert.KernelIdeal.defs _ _).mono
    (fun _ h c => ⟨(h c).1.trans (Cert.KernelValue.result m ρ c), (h c).2⟩) (Cert.KernelIdeal.Run.run m ρ), ?_⟩
  refine (θ_run Cert.ReferenceIdeal.defs _ _).mono (fun _ h c => ⟨(h c).1.trans ?_, (h c).2⟩)
    (Cert.ReferenceIdeal.Value.run (F := Ideal) m' ρ')
  rw [Cert.RefValue.result_eq, (hagree c).1, (hagree c).2.1, (hagree c).2.2.1, (hagree c).2.2.2.1, (hagree c).2.2.2.2.1,
    (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
